-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x32 .f32) (main_arg2 : IVec S800000 32) (main_arg3 : IVec S800000 32) (main_arg4 : FVec F S160x64 .f32) (main_arg5 : FVec F S64 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x64 .f32 := Host.absf main_arg4
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S50000x64 : Shape := ⟨2, ![50000, 64]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S128x64 : Shape := ⟨2, ![128, 64]⟩
abbrev S_ : Shape := ⟨0, ![]⟩
abbrev S800000x1 : Shape := ⟨2, ![800000, 1]⟩
abbrev S800000x64 : Shape := ⟨2, ![800000, 64]⟩
abbrev S64x64 : Shape := ⟨2, ![64, 64]⟩
abbrev S32x64 : Shape := ⟨2, ![32, 64]⟩
abbrev S1x64 : Shape := ⟨2, ![1, 64]⟩
abbrev S10000x64 : Shape := ⟨2, ![10000, 64]⟩
abbrev S10000x32 : Shape := ⟨2, ![10000, 32]⟩
abbrev S50000 : Shape := ⟨1, ![50000]⟩
abbrev S50000x1 : Shape := ⟨2, ![50000, 1]⟩

abbrev nBuf : Space → Nat
  | .hbm => 60
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S160x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S64x64, .f32⟩
  | .hbm, ⟨27, _⟩ => ⟨S32x64, .f32⟩
  | .hbm, ⟨28, _⟩ => ⟨S64x64, .f32⟩
  | .hbm, ⟨29, _⟩ => ⟨S1x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S50000x1, .f32⟩
  | .hbm, ⟨42, _⟩ => ⟨S_, .f32⟩
  | .hbm, ⟨43, _⟩ => ⟨S50000x1, .f32⟩
  | .hbm, ⟨44, _⟩ => ⟨S50000x1, .i1⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S_, .f32⟩
  | .hbm, ⟨53, _⟩ => ⟨S50000x64, .i1⟩
  | .hbm, ⟨54, _⟩ => ⟨S50000x64, .f32⟩
  | .hbm, ⟨55, _⟩ => ⟨S50000x64, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x32, .f32⟩
  | .local _ .vmem, ⟨3, _⟩ => ⟨S10000x32, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S32x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S160x64_S64x64_0_0 : S160x64.Slices ![0, 0] S64x64
  slices_S160x64_S32x64_64_0 : S160x64.Slices ![64, 0] S32x64
  slices_S160x64_S64x64_96_0 : S160x64.Slices ![96, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S128x64_S64x64_0_0 : S128x64.Slices ![0, 0] S64x64
  slices_S128x64_S64x64_64_0 : S128x64.Slices ![64, 0] S64x64
  gather_S50000x64_S800000x1_S800000x64_1_0_n_n_0_1_164_wf : GatherDims.WF S50000x64 S800000x1 S800000x64 [1] [0] [] [0] [] 1 ![1, 64]
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S800000x32.size a
  hwx0_1 : ∀ i : grid0.Coords, EltTy.bits .f32 = 32 ∨ (Rect.block (s := S800000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S800000x64.size a
  hwx0_7 : ∀ i : grid0.Coords, EltTy.bits .f32 = 32 ∨ (Rect.block (s := S800000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S128x64 : Shape := ⟨2, ![128, 64]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S160x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x160, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .i1⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S_, .f32⟩
  | .hbm, ⟨56, _⟩ => ⟨S50000x64, .i1⟩
  | .hbm, ⟨57, _⟩ => ⟨S50000x64, .f32⟩
  | .hbm, ⟨58, _⟩ => ⟨S50000x64, .f32⟩
  | .hbm, ⟨59, _⟩ => ⟨S50000x128, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_cst : Ref sig .tc := ⟨.hbm, 64, rfl⟩
abbrev main_call2_v0 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x64_S800000x160_d1 : Shape.Concatenates [S800000x64, S800000x32, S800000x64] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x160_S160x64_S800000x64_1_0_0_1_n_n_wf : DotDims.WF S800000x160 S160x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two dense layers of the message-passing step, as functions of whole arrays at the exact (extended-real) instance.

  An edge's message is  relu(x_src · W_src + x_edge · W_edge + x_dst · W_dst + b)  and a node's update is
  relu(neigh · W_neigh + x_node · W_node + b): a row of the result depends on the same row of each left operand and on
  the whole weight blocks.  `mlp3` and `mlp2` state them entry by entry for any number of rows, so that the same function
  describes one block of rows and the whole array.  The second half joins the split form to the joined one: the product
  of the row-wise concatenation with the stacked weights is the sum of the pieces' products (a finite sum over
  `Fin (a + b)` splits, by associativity and commutativity of the extended reals' addition only).
-/
import Idealize.ShloMosaic.Lib.ValueIdx
import Idealize.ShloMosaic.PureOps.Ideal.Laws

noncomputable section

open scoped BigOperators

namespace MlpSpec

open Idealize.ShloMosaic Idealize.ShloMosaic.ValueIdx

/-- The zero a rectifier compares with: the extended real the all-zero f32 word denotes. -/
abbrev z0 : EReal := Ideal.ofBits .f32 0x00000000#32

/-- Entry (p, q) of the three-part layer. -/
def mlp3At {M : Nat} (s : (⟨2, ![M, 64]⟩ : Shape).Idx → EReal) (e : (⟨2, ![M, 32]⟩ : Shape).Idx → EReal)
    (d : (⟨2, ![M, 64]⟩ : Shape).Idx → EReal) (ws : (⟨2, ![64, 64]⟩ : Shape).Idx → EReal)
    (we : (⟨2, ![32, 64]⟩ : Shape).Idx → EReal) (wd : (⟨2, ![64, 64]⟩ : Shape).Idx → EReal)
    (b : (⟨2, ![1, 64]⟩ : Shape).Idx → EReal) (p : Fin M) (q : Fin 64) : EReal :=
  max ((((∑ k : Fin 64, s (ix2 p k) * ws (ix2 k q)) + ∑ k : Fin 32, e (ix2 p k) * we (ix2 k q))
    + ∑ k : Fin 64, d (ix2 p k) * wd (ix2 k q)) + b (ix2 (0 : Fin 1) q)) z0

/-- The three-part layer on `M` rows. -/
def mlp3 {M : Nat} (s : (⟨2, ![M, 64]⟩ : Shape).Idx → EReal) (e : (⟨2, ![M, 32]⟩ : Shape).Idx → EReal)
    (d : (⟨2, ![M, 64]⟩ : Shape).Idx → EReal) (ws : (⟨2, ![64, 64]⟩ : Shape).Idx → EReal)
    (we : (⟨2, ![32, 64]⟩ : Shape).Idx → EReal) (wd : (⟨2, ![64, 64]⟩ : Shape).Idx → EReal)
    (b : (⟨2, ![1, 64]⟩ : Shape).Idx → EReal) : (⟨2, ![M, 64]⟩ : Shape).Idx → EReal :=
  fun i => mlp3At s e d ws we wd b (i 0) (i 1)

theorem mlp3_apply {M : Nat} (s : (⟨2, ![M, 64]⟩ : Shape).Idx → EReal) (e : (⟨2, ![M, 32]⟩ : Shape).Idx → EReal)
    (d : (⟨2, ![M, 64]⟩ : Shape).Idx → EReal) (ws : (⟨2, ![64, 64]⟩ : Shape).Idx → EReal)
    (we : (⟨2, ![32, 64]⟩ : Shape).Idx → EReal) (wd : (⟨2, ![64, 64]⟩ : Shape).Idx → EReal)
    (b : (⟨2, ![1, 64]⟩ : Shape).Idx → EReal) (p : Fin M) (q : Fin 64) :
    mlp3 s e d ws we wd b (ix2 p q) = mlp3At s e d ws we wd b p q := rfl

/-- Entry (p, q) of the two-part layer. -/
def mlp2At {M : Nat} (n : (⟨2, ![M, 64]⟩ : Shape).Idx → EReal) (x : (⟨2, ![M, 64]⟩ : Shape).Idx → EReal)
    (wn : (⟨2, ![64, 64]⟩ : Shape).Idx → EReal) (wx : (⟨2, ![64, 64]⟩ : Shape).Idx → EReal)
    (b : (⟨2, ![1, 64]⟩ : Shape).Idx → EReal) (p : Fin M) (q : Fin 64) : EReal :=
  max (((∑ k : Fin 64, n (ix2 p k) * wn (ix2 k q)) + ∑ k : Fin 64, x (ix2 p k) * wx (ix2 k q)) + b (ix2 (0 : Fin 1) q)) z0

/-- The two-part layer on `M` rows. -/
def mlp2 {M : Nat} (n : (⟨2, ![M, 64]⟩ : Shape).Idx → EReal) (x : (⟨2, ![M, 64]⟩ : Shape).Idx → EReal)
    (wn : (⟨2, ![64, 64]⟩ : Shape).Idx → EReal) (wx : (⟨2, ![64, 64]⟩ : Shape).Idx → EReal)
    (b : (⟨2, ![1, 64]⟩ : Shape).Idx → EReal) : (⟨2, ![M, 64]⟩ : Shape).Idx → EReal :=
  fun i => mlp2At n x wn wx b (i 0) (i 1)

theorem mlp2_apply {M : Nat} (n : (⟨2, ![M, 64]⟩ : Shape).Idx → EReal) (x : (⟨2, ![M, 64]⟩ : Shape).Idx → EReal)
    (wn : (⟨2, ![64, 64]⟩ : Shape).Idx → EReal) (wx : (⟨2, ![64, 64]⟩ : Shape).Idx → EReal)
    (b : (⟨2, ![1, 64]⟩ : Shape).Idx → EReal) (p : Fin M) (q : Fin 64) :
    mlp2 n x wn wx b (ix2 p q) = mlp2At n x wn wx b p q := rfl

/-- A sum over 160 indices is the sum over the first 64, plus the sum over the next 32, plus the sum over the last 64. -/
theorem sum160 (f : Fin 160 → EReal) :
    ∑ k : Fin 160, f k = ((∑ k : Fin 64, f ⟨k.val, by have := k.isLt; omega⟩) + ∑ k : Fin 32, f ⟨64 + k.val, by have := k.isLt; omega⟩)
      + ∑ k : Fin 64, f ⟨96 + k.val, by have := k.isLt; omega⟩ := by
  have h1 : ∑ k : Fin (96 + 64), f k = (∑ k : Fin 96, f (Fin.castAdd 64 k)) + ∑ k : Fin 64, f (Fin.natAdd 96 k) :=
    @Fin.sum_univ_add EReal _ 96 64 f
  have h2 : ∑ k : Fin (64 + 32), f (Fin.castAdd 64 k)
      = (∑ k : Fin 64, f (Fin.castAdd 64 (Fin.castAdd 32 k))) + ∑ k : Fin 32, f (Fin.castAdd 64 (Fin.natAdd 64 k)) :=
    @Fin.sum_univ_add EReal _ 64 32 (fun k : Fin (64 + 32) => f (Fin.castAdd 64 k))
  exact h1.trans (congrArg₂ (· + ·) h2 rfl)

/-- A sum over 128 indices is the sum over the first 64 plus the sum over the last 64. -/
theorem sum128 (f : Fin 128 → EReal) :
    ∑ k : Fin 128, f k = (∑ k : Fin 64, f ⟨k.val, by have := k.isLt; omega⟩) + ∑ k : Fin 64, f ⟨64 + k.val, by have := k.isLt; omega⟩ := by
  have h1 : ∑ k : Fin (64 + 64), f k = (∑ k : Fin 64, f (Fin.castAdd 64 k)) + ∑ k : Fin 64, f (Fin.natAdd 64 k) :=
    @Fin.sum_univ_add EReal _ 64 64 f
  exact h1

end MlpSpec

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KPay.lean ====
/-
  What each kernel body stores, at the exact instance: the edge body's stored block is the three-part layer of its
  loaded blocks, the node body's the two-part layer.  A change of float format is the identity on extended reals, a matrix
  product into a zero accumulator is the plain sum of products, the bias row is repeated along the rows, and the
  rectifier is the maximum with the zero word's value.
-/
import proofs.«166443_j88837103551520_1_alg».proof.Proof.Gen.KernelIdeal.Skeleton
import proofs.«166443_j88837103551520_1_alg».proof.Proof.Spec
import proofs.«166443_j88837103551520_1_alg».proof.Proof.LibPlainDot
import Idealize.ShloMosaic.Lib.Pipeline.Value

noncomputable section

open scoped BigOperators

namespace Cert.KernelIdeal.Hand

open Cert.KernelIdeal Cert.KernelIdeal.Gen Idealize.ShloMosaic Idealize.ShloMosaic.ValueIdx MlpSpec

theorem plain64 : PlainDot.IsPlain (M := 10000) (K := 64) (N := 64) dot_S10000x64_S64x64_S10000x64_1_0_0_1_n_n :=
  ⟨rfl, rfl, rfl, rfl, rfl, rfl⟩

theorem plain32 : PlainDot.IsPlain (M := 10000) (K := 32) (N := 64) dot_S10000x32_S32x64_S10000x64_1_0_0_1_n_n :=
  ⟨rfl, rfl, rfl, rfl, rfl, rfl⟩

/-- The bias row repeated along the rows, read at an entry. -/
theorem bias_row (b : Vec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) fun a => by
    match a with
    | ⟨0, _⟩ => rfl
    | ⟨1, _⟩ => rfl

/-- The edge body stores the three-part layer of its blocks. -/
theorem edge_payload (x0 : Vec Ideal S10000x64 .f32) (x1 : Vec Ideal S10000x32 .f32) (x2 : Vec Ideal S10000x64 .f32)
    (x3 : Vec Ideal S64x64 .f32) (x4 : Vec Ideal S32x64 .f32) (x5 : Vec Ideal S64x64 .f32) (x6 : Vec Ideal S1x64 .f32) :
    k0_pay1 (F := Ideal) x0 x1 x2 x3 x4 x5 x6 = mlp3 (M := 10000) x0 x1 x2 x3 x4 x5 x6 := by
  funext j
  obtain ⟨p, q, rfl⟩ : ∃ (p : Fin 10000) (q : Fin 64), j = ix2 p q := ⟨j 0, j 1, eq_ix2 j⟩
  rw [mlp3_apply]
  unfold k0_pay1 mlp3At
  simp only [shapeCast_self]
  rw [maximumf_apply, addf_apply, addf_apply, addf_apply, bias_row,
    PlainDot.matmul_zero_apply plain64, PlainDot.matmul_zero_apply plain32, PlainDot.matmul_zero_apply plain64]
  rfl

/-- The node body stores the two-part layer of its blocks. -/
theorem node_payload (x0 : Vec Ideal S10000x64 .f32) (x1 : Vec Ideal S10000x64 .f32)
    (x2 : Vec Ideal S64x64 .f32) (x3 : Vec Ideal S64x64 .f32) (x4 : Vec Ideal S1x64 .f32) :
    k1_pay1 (F := Ideal) x0 x1 x2 x3 x4 = mlp2 (M := 10000) x0 x1 x2 x3 x4 := by
  funext j
  obtain ⟨p, q, rfl⟩ : ∃ (p : Fin 10000) (q : Fin 64), j = ix2 p q := ⟨j 0, j 1, eq_ix2 j⟩
  rw [mlp2_apply]
  unfold k1_pay1 mlp2At
  simp only [shapeCast_self]
  rw [maximumf_apply, addf_apply, addf_apply, bias_row,
    PlainDot.matmul_zero_apply plain64, PlainDot.matmul_zero_apply plain64]
  rfl

end Cert.KernelIdeal.Hand

end
-- ==== Proof.KReg0.lean ====
/-
  The edge region's result array, whatever contents the region is entered from.

  The region has 80 grid points; point t reads rows 10000·t … 10000·t + 9999 of the three row-blocked operands and the
  whole weight and bias arrays, and writes back the three-part layer of those blocks as rows 10000·t … of the result.
  A row of the layer depends only on the same row of the row-blocked operands, so each written block is the block of
  ONE whole-array function, the layer of the whole operands, and the 80 blocks cover the 800000 rows.
-/
import proofs.«166443_j88837103551520_1_alg».proof.Proof.Gen.KernelIdeal.Frame
import proofs.«166443_j88837103551520_1_alg».proof.Proof.KPay
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx MlpSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the others at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array the region finds under each window. -/
abbrev srcArr (c : Dev nD) : S800000x64.Idx → EReal := V c main_v6
abbrev edgeArr (c : Dev nD) : S800000x32.Idx → EReal := V c main_arg1
abbrev dstArr (c : Dev nD) : S800000x64.Idx → EReal := V c main_v13
abbrev wsArr (c : Dev nD) : S64x64.Idx → EReal := V c main_v14
abbrev weArr (c : Dev nD) : S32x64.Idx → EReal := V c main_v15
abbrev wdArr (c : Dev nD) : S64x64.Idx → EReal := V c main_v16
abbrev beArr (c : Dev nD) : S1x64.Idx → EReal := V c main_v17

/-- Block t of the gathered source rows: rows 10000·t + p of the array. -/
theorem blk0_0 (c : Dev nD) (t : Fin cfg0.N) (p : Fin 10000) (k : Fin 64) (P : Fin 800000) (hP : P.val = 10000 * t.val + p.val) :
    (iblk0 V c 0 t : Vec Ideal S10000x64 .f32) (ix2 p k) = srcArr V c (ix2 P k) := by
  obtain ⟨e0, e1, -⟩ := idx0 t
  unfold iblk0
  rw [View.read_apply]
  show V c main_v6 _ = V c main_v6 _
  congr 1
  funext a
  apply Fin.ext
  match a with
  | ⟨0, _⟩ => show win0_0.index t 0 * 10000 + 1 * p.val = P.val; rw [e0, hP]; omega
  | ⟨1, _⟩ => show win0_0.index t 1 * 64 + 1 * k.val = k.val; rw [e1]; omega

theorem blk0_1 (c : Dev nD) (t : Fin cfg0.N) (p : Fin 10000) (k : Fin 32) (P : Fin 800000) (hP : P.val = 10000 * t.val + p.val) :
    (iblk0 V c 1 t : Vec Ideal S10000x32 .f32) (ix2 p k) = edgeArr V c (ix2 P k) := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t 0 * 10000 + 1 * p.val = P.val; rw [e0, hP]; omega
  | ⟨1, _⟩ => show win0_1.index t 1 * 32 + 1 * k.val = k.val; rw [e1]; omega

theorem blk0_2 (c : Dev nD) (t : Fin cfg0.N) (p : Fin 10000) (k : Fin 64) (P : Fin 800000) (hP : P.val = 10000 * t.val + p.val) :
    (iblk0 V c 2 t : Vec Ideal S10000x64 .f32) (ix2 p k) = dstArr V c (ix2 P k) := by
  obtain ⟨-, -, -, -, e0, e1, -⟩ := idx0 t
  unfold iblk0
  rw [View.read_apply]
  show V c main_v13 _ = V c main_v13 _
  congr 1
  funext a
  apply Fin.ext
  match a with
  | ⟨0, _⟩ => show win0_2.index t 0 * 10000 + 1 * p.val = P.val; rw [e0, hP]; omega
  | ⟨1, _⟩ => show win0_2.index t 1 * 64 + 1 * k.val = k.val; rw [e1]; omega

theorem blk0_3 (c : Dev nD) (t : Fin cfg0.N) (k : Fin 64) (q : Fin 64) :
    (iblk0 V c 3 t : Vec Ideal S64x64 .f32) (ix2 k q) = wsArr V c (ix2 k q) := by
  obtain ⟨-, -, -, -, -, -, e0, e1, -⟩ := idx0 t
  unfold iblk0
  rw [View.read_apply]
  show V c main_v14 _ = V c main_v14 _
  congr 1
  funext a
  apply Fin.ext
  match a with
  | ⟨0, _⟩ => show win0_3.index t 0 * 64 + 1 * k.val = k.val; rw [e0]; omega
  | ⟨1, _⟩ => show win0_3.index t 1 * 64 + 1 * q.val = q.val; rw [e1]; omega

theorem blk0_4 (c : Dev nD) (t : Fin cfg0.N) (k : Fin 32) (q : Fin 64) :
    (iblk0 V c 4 t : Vec Ideal S32x64 .f32) (ix2 k q) = weArr V c (ix2 k q) := by
  obtain ⟨-, -, -, -, -, -, -, -, e0, e1, -⟩ := idx0 t
  unfold iblk0
  rw [View.read_apply]
  show V c main_v15 _ = V c main_v15 _
  congr 1
  funext a
  apply Fin.ext
  match a with
  | ⟨0, _⟩ => show win0_4.index t 0 * 32 + 1 * k.val = k.val; rw [e0]; omega
  | ⟨1, _⟩ => show win0_4.index t 1 * 64 + 1 * q.val = q.val; rw [e1]; omega

theorem blk0_5 (c : Dev nD) (t : Fin cfg0.N) (k : Fin 64) (q : Fin 64) :
    (iblk0 V c 5 t : Vec Ideal S64x64 .f32) (ix2 k q) = wdArr V c (ix2 k q) := by
  obtain ⟨-, -, -, -, -, -, -, -, -, -, e0, e1, -⟩ := idx0 t
  unfold iblk0
  rw [View.read_apply]
  show V c main_v16 _ = V c main_v16 _
  congr 1
  funext a
  apply Fin.ext
  match a with
  | ⟨0, _⟩ => show win0_5.index t 0 * 64 + 1 * k.val = k.val; rw [e0]; omega
  | ⟨1, _⟩ => show win0_5.index t 1 * 64 + 1 * q.val = q.val; rw [e1]; omega

theorem blk0_6 (c : Dev nD) (t : Fin cfg0.N) (q : Fin 64) :
    (iblk0 V c 6 t : Vec Ideal S1x64 .f32) (ix2 (0 : Fin 1) q) = beArr V c (ix2 (0 : Fin 1) q) := by
  obtain ⟨-, -, -, -, -, -, -, -, -, -, -, -, e0, e1, -⟩ := idx0 t
  unfold iblk0
  rw [View.read_apply]
  show V c main_v17 _ = V c main_v17 _
  congr 1
  funext a
  apply Fin.ext
  match a with
  | ⟨0, _⟩ => show win0_6.index t 0 * 1 + 1 * 0 = 0; rw [e0]
  | ⟨1, _⟩ => show win0_6.index t 1 * 64 + 1 * q.val = q.val; rw [e1]; omega

/-- The whole-array function the edge region's result array ends holding. -/
abbrev edgeOut (c : Dev nD) : S800000x64.Idx → EReal :=
  mlp3 (M := 800000) (srcArr V c) (edgeArr V c) (dstArr V c) (wsArr V c) (weArr V c) (wdArr V c) (beArr V c)

/-- What point t writes back is block t of the layer of the whole operands. -/
theorem flushed0 (c : Dev nD) (t : Fin cfg0.N) :
    (dat0 V c).flushed 7 t = ((cfg0.win 7).blk t).view.read (Elt Ideal) (edgeOut V c) := by
  show (cfg0.win 7).cut (grid0.coords t) ((dat0 V c).after 7 t) = _
  rw [after0_7]
  unfold out0_7
  rw [View.canon_unit_zero hz]
  simp only [View.ld_unit_zero (S := S10000x64) hz, View.ld_unit_zero (S := S10000x32) hz, View.ld_unit_zero (S := S64x64) hz,
    View.ld_unit_zero (S := S32x64) hz, View.ld_unit_zero (S := S1x64) hz]
  rw [edge_payload]
  obtain ⟨-, -, -, -, -, -, -, -, -, -, -, -, -, -, e0, e1⟩ := idx0 t
  funext j
  obtain ⟨p, q, rfl⟩ : ∃ (p : Fin 10000) (q : Fin 64), j = ix2 p q := ⟨j 0, j 1, eq_ix2 j⟩
  have hPlt : 10000 * t.val + p.val < 800000 := by
    have h80 : t.val < 80 := lt_of_lt_of_eq t.isLt N_0
    have := p.isLt; omega
  have hemb : ((cfg0.win 7).blk t).view.emb (ix2 p q) = (ix2 (⟨10000 * t.val + p.val, hPlt⟩ : Fin 800000) q : S800000x64.Idx) := by
    funext a
    apply Fin.ext
    match a with
    | ⟨0, _⟩ => show win0_7.index t 0 * 10000 + 1 * p.val = 10000 * t.val + p.val; rw [e0]; omega
    | ⟨1, _⟩ => show win0_7.index t 1 * 64 + 1 * q.val = q.val; rw [e1]; omega
  show mlp3 (M := 10000) (iblk0 V c 0 t) (iblk0 V c 1 t) (iblk0 V c 2 t) (iblk0 V c 3 t) (iblk0 V c 4 t) (iblk0 V c 5 t) (iblk0 V c 6 t) (ix2 p q)
    = edgeOut V c (((cfg0.win 7).blk t).view.emb (ix2 p q))
  rw [hemb, mlp3_apply]
  show mlp3At _ _ _ _ _ _ _ p q = mlp3At (srcArr V c) (edgeArr V c) (dstArr V c) (wsArr V c) (weArr V c) (wdArr V c) (beArr V c)
    ⟨10000 * t.val + p.val, hPlt⟩ q
  unfold mlp3At
  simp only [blk0_0 V c t p _ ⟨10000 * t.val + p.val, hPlt⟩ rfl, blk0_1 V c t p _ ⟨10000 * t.val + p.val, hPlt⟩ rfl,
    blk0_2 V c t p _ ⟨10000 * t.val + p.val, hPlt⟩ rfl, blk0_3, blk0_4, blk0_5, blk0_6]

/-- Row r of the result lies in the block of point r / 10000. -/
theorem cover0 (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  let t : Fin cfg0.N := ⟨(i 0).val / 10000, by rw [show cfg0.N = 80 from N_0]; omega⟩
  obtain ⟨-, -, -, -, -, -, -, -, -, -, -, -, -, -, e0, e1⟩ := idx0 t
  refine ⟨t, flush0_7 t, ?_⟩
  show i ∈ ((View.whole main_v18).slice (win0_7.rect t)).set
  rw [View.set_slice_whole, Rect.mem_set_unit]
  intro a
  have ht : t.val = (i 0).val / 10000 := rfl
  match a with
  | ⟨0, _⟩ =>
    show win0_7.index t 0 * 10000 ≤ (i 0).val ∧ (i 0).val < win0_7.index t 0 * 10000 + 10000
    rw [e0, ht]; omega
  | ⟨1, _⟩ =>
    show win0_7.index t 1 * 64 ≤ (i 1).val ∧ (i 1).val < win0_7.index t 1 * 64 + 64
    rw [e1]; omega

/-- The result array after the region: the three-part layer of the arrays the region found. -/
theorem final0 (c : Dev nD) : (dat0 V c).arrAt 7 cfg0.N = edgeOut V c :=
  (dat0 V c).arrAt_eq_of_cover 7 (edgeOut V c) (fun t _ => flushed0 V c t) cover0

end Cert.KernelIdeal.Hand

end
-- ==== Proof.KReg1.lean ====
/-
  The node region's result array, whatever contents the region is entered from.

  The region has 5 grid points; point t reads rows 10000·t … 10000·t + 9999 of the aggregated neighbour features and of
  the node features, and the whole weight and bias arrays, and writes back the two-part layer of those blocks as rows
  10000·t … of the result.  Each written block is the block of the layer of the whole operands, and the 5 blocks cover
  the 50000 rows.
-/
import proofs.«166443_j88837103551520_1_alg».proof.Proof.Gen.KernelIdeal.Frame
import proofs.«166443_j88837103551520_1_alg».proof.Proof.KPay
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Hand1

open Cert.KernelIdeal Cert.KernelIdeal.Gen Cert.KernelIdeal.Hand Idealize.ShloMosaic.ValueIdx MlpSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the others at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the region finds under each window. -/
abbrev neighArr (c : Dev nD) : S50000x64.Idx → EReal := V c main_v34
abbrev nodeArr (c : Dev nD) : S50000x64.Idx → EReal := V c main_arg0
abbrev wnArr (c : Dev nD) : S64x64.Idx → EReal := V c main_v35
abbrev wxArr (c : Dev nD) : S64x64.Idx → EReal := V c main_v36
abbrev bvArr (c : Dev nD) : S1x64.Idx → EReal := V c main_v37

/-- Block t of the neighbour features: rows 10000·t + p of the array. -/
theorem blk1_0 (c : Dev nD) (t : Fin cfg1.N) (p : Fin 10000) (k : Fin 64) (P : Fin 50000) (hP : P.val = 10000 * t.val + p.val) :
    (iblk1 V c 0 t : Vec Ideal S10000x64 .f32) (ix2 p k) = neighArr V c (ix2 P k) := by
  obtain ⟨e0, e1, -⟩ := idx1 t
  unfold iblk1
  rw [View.read_apply]
  show V c main_v34 _ = V c main_v34 _
  congr 1
  funext a
  apply Fin.ext
  match a with
  | ⟨0, _⟩ => show win1_0.index t 0 * 10000 + 1 * p.val = P.val; rw [e0, hP]; omega
  | ⟨1, _⟩ => show win1_0.index t 1 * 64 + 1 * k.val = k.val; rw [e1]; omega

theorem blk1_1 (c : Dev nD) (t : Fin cfg1.N) (p : Fin 10000) (k : Fin 64) (P : Fin 50000) (hP : P.val = 10000 * t.val + p.val) :
    (iblk1 V c 1 t : Vec Ideal S10000x64 .f32) (ix2 p k) = nodeArr V c (ix2 P k) := by
  obtain ⟨-, -, e0, e1, -⟩ := idx1 t
  unfold iblk1
  rw [View.read_apply]
  show V c main_arg0 _ = V c main_arg0 _
  congr 1
  funext a
  apply Fin.ext
  match a with
  | ⟨0, _⟩ => show win1_1.index t 0 * 10000 + 1 * p.val = P.val; rw [e0, hP]; omega
  | ⟨1, _⟩ => show win1_1.index t 1 * 64 + 1 * k.val = k.val; rw [e1]; omega

theorem blk1_2 (c : Dev nD) (t : Fin cfg1.N) (k : Fin 64) (q : Fin 64) :
    (iblk1 V c 2 t : Vec Ideal S64x64 .f32) (ix2 k q) = wnArr V c (ix2 k q) := by
  obtain ⟨-, -, -, -, e0, e1, -⟩ := idx1 t
  unfold iblk1
  rw [View.read_apply]
  show V c main_v35 _ = V c main_v35 _
  congr 1
  funext a
  apply Fin.ext
  match a with
  | ⟨0, _⟩ => show win1_2.index t 0 * 64 + 1 * k.val = k.val; rw [e0]; omega
  | ⟨1, _⟩ => show win1_2.index t 1 * 64 + 1 * q.val = q.val; rw [e1]; omega

theorem blk1_3 (c : Dev nD) (t : Fin cfg1.N) (k : Fin 64) (q : Fin 64) :
    (iblk1 V c 3 t : Vec Ideal S64x64 .f32) (ix2 k q) = wxArr V c (ix2 k q) := by
  obtain ⟨-, -, -, -, -, -, e0, e1, -⟩ := idx1 t
  unfold iblk1
  rw [View.read_apply]
  show V c main_v36 _ = V c main_v36 _
  congr 1
  funext a
  apply Fin.ext
  match a with
  | ⟨0, _⟩ => show win1_3.index t 0 * 64 + 1 * k.val = k.val; rw [e0]; omega
  | ⟨1, _⟩ => show win1_3.index t 1 * 64 + 1 * q.val = q.val; rw [e1]; omega

theorem blk1_4 (c : Dev nD) (t : Fin cfg1.N) (q : Fin 64) :
    (iblk1 V c 4 t : Vec Ideal S1x64 .f32) (ix2 (0 : Fin 1) q) = bvArr V c (ix2 (0 : Fin 1) q) := by
  obtain ⟨-, -, -, -, -, -, -, -, e0, e1, -⟩ := idx1 t
  unfold iblk1
  rw [View.read_apply]
  show V c main_v37 _ = V c main_v37 _
  congr 1
  funext a
  apply Fin.ext
  match a with
  | ⟨0, _⟩ => show win1_4.index t 0 * 1 + 1 * 0 = 0; rw [e0]
  | ⟨1, _⟩ => show win1_4.index t 1 * 64 + 1 * q.val = q.val; rw [e1]; omega

/-- The whole-array function the node region's result array ends holding. -/
abbrev nodeOut (c : Dev nD) : S50000x64.Idx → EReal :=
  mlp2 (M := 50000) (neighArr V c) (nodeArr V c) (wnArr V c) (wxArr V c) (bvArr V c)

/-- What point t writes back is block t of the layer of the whole operands. -/
theorem flushed1 (c : Dev nD) (t : Fin cfg1.N) :
    (dat1 V c).flushed 5 t = ((cfg1.win 5).blk t).view.read (Elt Ideal) (nodeOut V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  rw [node_payload]
  obtain ⟨-, -, -, -, -, -, -, -, -, -, e0, e1⟩ := idx1 t
  funext j
  obtain ⟨p, q, rfl⟩ : ∃ (p : Fin 10000) (q : Fin 64), j = ix2 p q := ⟨j 0, j 1, eq_ix2 j⟩
  have hPlt : 10000 * t.val + p.val < 50000 := by
    have h5 : t.val < 5 := lt_of_lt_of_eq t.isLt N_1
    have := p.isLt; omega
  have hemb : ((cfg1.win 5).blk t).view.emb (ix2 p q) = (ix2 (⟨10000 * t.val + p.val, hPlt⟩ : Fin 50000) q : S50000x64.Idx) := by
    funext a
    apply Fin.ext
    match a with
    | ⟨0, _⟩ => show win1_5.index t 0 * 10000 + 1 * p.val = 10000 * t.val + p.val; rw [e0]; omega
    | ⟨1, _⟩ => show win1_5.index t 1 * 64 + 1 * q.val = q.val; rw [e1]; omega
  show mlp2 (M := 10000) (iblk1 V c 0 t) (iblk1 V c 1 t) (iblk1 V c 2 t) (iblk1 V c 3 t) (iblk1 V c 4 t) (ix2 p q)
    = nodeOut V c (((cfg1.win 5).blk t).view.emb (ix2 p q))
  rw [hemb, mlp2_apply]
  show mlp2At _ _ _ _ _ p q = mlp2At (neighArr V c) (nodeArr V c) (wnArr V c) (wxArr V c) (bvArr V c)
    ⟨10000 * t.val + p.val, hPlt⟩ q
  unfold mlp2At
  simp only [blk1_0 V c t p _ ⟨10000 * t.val + p.val, hPlt⟩ rfl, blk1_1 V c t p _ ⟨10000 * t.val + p.val, hPlt⟩ rfl,
    blk1_2, blk1_3, blk1_4]

/-- Row r of the result lies in the block of point r / 10000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 10000, by rw [show cfg1.N = 5 from N_1]; omega⟩
  obtain ⟨-, -, -, -, -, -, -, -, -, -, e0, e1⟩ := idx1 t
  refine ⟨t, flush1_5 t, ?_⟩
  show i ∈ ((View.whole main_v38).slice (win1_5.rect t)).set
  rw [View.set_slice_whole, Rect.mem_set_unit]
  intro a
  have ht : t.val = (i 0).val / 10000 := rfl
  match a with
  | ⟨0, _⟩ =>
    show win1_5.index t 0 * 10000 ≤ (i 0).val ∧ (i 0).val < win1_5.index t 0 * 10000 + 10000
    rw [e0, ht]; omega
  | ⟨1, _⟩ =>
    show win1_5.index t 1 * 64 ≤ (i 1).val ∧ (i 1).val < win1_5.index t 1 * 64 + 64
    rw [e1]; omega

/-- The result array after the region: the two-part layer of the arrays the region found. -/
theorem final1 (c : Dev nD) : (dat1 V c).arrAt 5 cfg1.N = nodeOut V c :=
  (dat1 V c).arrAt_eq_of_cover 5 (nodeOut V c) (fun t _ => flushed1 V c t) cover1

end Cert.KernelIdeal.Hand1

end
-- ==== Proof.KHost.lean ====
/-
  What the host operations around the two regions leave in the buffers the regions read, as functions of the
  arguments.  Before the edge region: the gathered source and destination rows, the three row blocks of the edge
  weights and the bias as a row.  Between the regions: the mean of the messages by destination, computed from the edge
  region's result array and the destination indices; the two row blocks of the node weights and the bias as a row.
  Each is read off the fold of the operations over the launch memory; a buffer no operation writes keeps its contents.
-/
import proofs.«166443_j88837103551520_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- Rows of the node features picked by an index vector, a negative index counted from the end (the host's gather). -/
def rows (node : (⟨S50000x64, .f32⟩ : BufTy).Contents (Elt F)) (idx : (⟨S800000, .i32⟩ : BufTy).Contents (Elt F)) :
    (⟨S800000x64, .f32⟩ : BufTy).Contents (Elt F) :=
  Host.gather gather_S50000x64_S800000x1_S800000x64_1_0_n_n_0_1_164 node
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32))) idx))

/-- How many edges point at each node, as a float: ones scattered and added by destination. -/
def degree (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The mean of the messages arriving at each node (zero where none arrives): the messages scattered and added by
    destination, divided by the larger of the degree and one, kept where the degree is positive. -/
def neigh (msg : (⟨S800000x64, .f32⟩ : BufTy).Contents (Elt F)) (dst : (⟨S800000, .i32⟩ : BufTy).Contents (Elt F)) :
    (⟨S50000x64, .f32⟩ : BufTy).Contents (Elt F) :=
  select
    (broadcastInDim S50000x64 ![0, 1] bcast_S50000x1_S50000x64_0_1
      (cmpf (F := F) .ogt (broadcastInDim S50000x1 ![0] bcast_S50000_S50000x1_0 (degree dst))
        (broadcastInDim S50000x1 ![] bcast_S_S50000x1 (constant S_ .f32 0x00000000#32))))
    (Host.divf
      (Host.scatterAdd scatter_S50000x64_S800000x1_S800000x64_1_0_0_1
        (broadcastInDim S50000x64 ![] bcast_S_S50000x64 (constant S_ .f32 0x00000000#32))
        (broadcastInDim S800000x1 ![0] bcast_S800000_S800000x1_0 dst) msg)
      (broadcastInDim S50000x64 ![0, 1] bcast_S50000x1_S50000x64_0_1
        (maximumf (broadcastInDim S50000x1 ![0] bcast_S50000_S50000x1_0 (degree dst))
          (broadcastInDim S50000x1 ![] bcast_S_S50000x1 (constant S_ .f32 0x3F800000#32)))))
    (broadcastInDim S50000x64 ![] bcast_S_S50000x64 (id (constant S_ .f32 0x00000000#32)))

variable (m : (ℓ : Loc nD τ sig) → Buf (Elt F) ℓ) (ρ : Dev nD → PrngReg)

/-! ## Before the edge region -/

theorem V1_v6 (c : Dev nD) : V1 m ρ c main_v6 = rows (m ((c : Thread nD τ).loc main_arg0)) (m ((c : Thread nD τ).loc main_arg2)) := by
  show StableHlo.after hostOps0 (W0 m ρ c) (Proc.devRef .tc main_v6) = _
  after_results
  all_goals rfl

theorem V1_v13 (c : Dev nD) : V1 m ρ c main_v13 = rows (m ((c : Thread nD τ).loc main_arg0)) (m ((c : Thread nD τ).loc main_arg3)) := by
  show StableHlo.after hostOps0 (W0 m ρ c) (Proc.devRef .tc main_v13) = _
  after_results
  all_goals rfl

theorem V1_arg1 (c : Dev nD) : V1 m ρ c main_arg1 = m ((c : Thread nD τ).loc main_arg1) := by
  show StableHlo.after hostOps0 (W0 m ρ c) (Proc.devRef .tc main_arg1) = _
  after_results
  all_goals rfl

theorem V1_v14 (c : Dev nD) : V1 m ρ c main_v14 = extractStridedSlice S64x64 ![0, 0] (m ((c : Thread nD τ).loc main_arg4)) slices_S160x64_S64x64_0_0 := by
  show StableHlo.after hostOps0 (W0 m ρ c) (Proc.devRef .tc main_v14) = _
  after_results
  all_goals rfl

theorem V1_v15 (c : Dev nD) : V1 m ρ c main_v15 = extractStridedSlice S32x64 ![64, 0] (m ((c : Thread nD τ).loc main_arg4)) slices_S160x64_S32x64_64_0 := by
  show StableHlo.after hostOps0 (W0 m ρ c) (Proc.devRef .tc main_v15) = _
  after_results
  all_goals rfl

theorem V1_v16 (c : Dev nD) : V1 m ρ c main_v16 = extractStridedSlice S64x64 ![96, 0] (m ((c : Thread nD τ).loc main_arg4)) slices_S160x64_S64x64_96_0 := by
  show StableHlo.after hostOps0 (W0 m ρ c) (Proc.devRef .tc main_v16) = _
  after_results
  all_goals rfl

theorem V1_v17 (c : Dev nD) : V1 m ρ c main_v17 = shapeCast S1x64 (m ((c : Thread nD τ).loc main_arg5)) shapeCasts_S64_S1x64 := by
  show StableHlo.after hostOps0 (W0 m ρ c) (Proc.devRef .tc main_v17) = _
  after_results
  all_goals rfl

/-! ## Between the regions -/

/-- Argument main_arg0 as region 1 finds it is the launch contents: no host operation and no region writes it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument main_arg6 as the last host stretch finds it is the launch contents. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument main_arg7 as the last host stretch finds it is the launch contents. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The node features as the node region finds them. -/
theorem V5_arg0 (c : Dev nD) : V5 m ρ c main_arg0 = m ((c : Thread nD τ).loc main_arg0) := W5_main_arg0 m ρ c

/-- The destination indices as the middle stretch finds them. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The rectified-mean's three inputs after the middle stretch: the "degree is positive" mask, the quotient, the zero. -/
theorem W3_v28 (c : Dev nD) : W3 m ρ c (Proc.devRef .tc main_v28)
    = cmpf (F := F) .ogt (broadcastInDim S50000x1 ![0] bcast_S50000_S50000x1_0 (degree (W2 m ρ c (Proc.devRef .tc main_arg3))))
        (broadcastInDim S50000x1 ![] bcast_S_S50000x1 (constant S_ .f32 0x00000000#32)) := by
  show StableHlo.after hostOps1 (W2 m ρ c) (Proc.devRef .tc main_v28) = _
  after_results_simp
  all_goals rfl

theorem W3_v33 (c : Dev nD) : W3 m ρ c (Proc.devRef .tc main_v33)
    = Host.divf
      (Host.scatterAdd scatter_S50000x64_S800000x1_S800000x64_1_0_0_1
        (broadcastInDim S50000x64 ![] bcast_S_S50000x64 (constant S_ .f32 0x00000000#32))
        (broadcastInDim S800000x1 ![0] bcast_S800000_S800000x1_0 (W2 m ρ c (Proc.devRef .tc main_arg3))) (W2 m ρ c (Proc.devRef .tc main_v18)))
      (broadcastInDim S50000x64 ![0, 1] bcast_S50000x1_S50000x64_0_1
        (maximumf (broadcastInDim S50000x1 ![0] bcast_S50000_S50000x1_0 (degree (W2 m ρ c (Proc.devRef .tc main_arg3))))
          (broadcastInDim S50000x1 ![] bcast_S_S50000x1 (constant S_ .f32 0x3F800000#32)))) := by
  show StableHlo.after hostOps1 (W2 m ρ c) (Proc.devRef .tc main_v33) = _
  after_results_simp
  all_goals rfl

theorem W3_cst7 (c : Dev nD) : W3 m ρ c (Proc.devRef .tc main_cst_7) = constant S_ .f32 0x00000000#32 := by
  show StableHlo.after hostOps1 (W2 m ρ c) (Proc.devRef .tc main_cst_7) = _
  after_results_simp
  all_goals rfl

theorem W4_v34 (c : Dev nD) : W4 m ρ c (Proc.devRef .tc main_v34)
    = select (broadcastInDim S50000x64 ![0, 1] bcast_S50000x1_S50000x64_0_1 (W3 m ρ c (Proc.devRef .tc main_v28)))
        (W3 m ρ c (Proc.devRef .tc main_v33))
        (broadcastInDim S50000x64 ![] bcast_S_S50000x64 (id (W3 m ρ c (Proc.devRef .tc main_cst_7)))) := by
  show StableHlo.after hostOps1_1 (W3 m ρ c) (Proc.devRef .tc main_v34) = _
  after_results_simp
  all_goals (try simp only [TRef.ofBuf, TRef.toBuf, cast_eq])
  all_goals rfl

/-- The neighbour features the node region finds: the mean by destination of the edge region's result array. -/
theorem V5_v34 (c : Dev nD) : V5 m ρ c main_v34 = neigh (W2 m ρ c (Proc.devRef .tc main_v18)) (W2 m ρ c (Proc.devRef .tc main_arg3)) := by
  have h : W5 m ρ c (Proc.devRef .tc main_v34) = W4 m ρ c (Proc.devRef .tc main_v34) :=
    StableHlo.after_of_forall_not_mem _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  show W5 m ρ c (Proc.devRef .tc main_v34) = _
  rw [h, W4_v34, W3_v28, W3_v33, W3_cst7]
  rfl

theorem V5_v35 (c : Dev nD) : V5 m ρ c main_v35 = extractStridedSlice S64x64 ![0, 0] (W4 m ρ c (Proc.devRef .tc main_arg6)) slices_S128x64_S64x64_0_0 := by
  show StableHlo.after hostOps1_2 (W4 m ρ c) (Proc.devRef .tc main_v35) = _
  after_results
  all_goals rfl

theorem V5_v36 (c : Dev nD) : V5 m ρ c main_v36 = extractStridedSlice S64x64 ![64, 0] (W4 m ρ c (Proc.devRef .tc main_arg6)) slices_S128x64_S64x64_64_0 := by
  show StableHlo.after hostOps1_2 (W4 m ρ c) (Proc.devRef .tc main_v36) = _
  after_results
  all_goals rfl

theorem V5_v37 (c : Dev nD) : V5 m ρ c main_v37 = shapeCast S1x64 (W4 m ρ c (Proc.devRef .tc main_arg7)) shapeCasts_S64_S1x64 := by
  show StableHlo.after hostOps1_2 (W4 m ρ c) (Proc.devRef .tc main_v37) = _
  after_results
  all_goals rfl

end Cert.KernelIdeal.Host

end
-- ==== Proof.KValue.lean ====
/-
  The idealized kernel program's result as one function of its arguments.

  The node region's result array is the two-part layer of what the node region finds; what it finds is the mean by
  destination of the edge region's result array, the node features, and the node weights' two row blocks and bias row;
  the edge region's result array is the three-part layer of the gathered source and destination rows, the edge
  features, and the edge weights' three row blocks and bias row.
-/
import proofs.«166443_j88837103551520_1_alg».proof.Proof.KReg0
import proofs.«166443_j88837103551520_1_alg».proof.Proof.KReg1
import proofs.«166443_j88837103551520_1_alg».proof.Proof.KHost

set_option maxRecDepth 16384

noncomputable section

open Idealize.ShloMosaic Idealize.ShloMosaic.TcCoe Idealize.SL.Sem

namespace Cert.KernelIdeal.Whole

open Cert.KernelIdeal Cert.KernelIdeal.Gen Cert.KernelIdeal.Host Cert.KernelIdeal.Hand Cert.KernelIdeal.Hand1 MlpSpec

/-- The messages: the three-part layer of the gathered rows and the edge features. -/
def messages (a0 : S50000x64.Idx → EReal) (a1 : S800000x32.Idx → EReal) (a2 a3 : (⟨S800000, .i32⟩ : BufTy).Contents (Elt Ideal))
    (a4 : S160x64.Idx → EReal) (a5 : S64.Idx → EReal) : S800000x64.Idx → EReal :=
  mlp3 (M := 800000) (rows (F := Ideal) a0 a2) a1 (rows (F := Ideal) a0 a3)
    (extractStridedSlice S64x64 ![0, 0] a4 slices_S160x64_S64x64_0_0)
    (extractStridedSlice S32x64 ![64, 0] a4 slices_S160x64_S32x64_64_0)
    (extractStridedSlice S64x64 ![96, 0] a4 slices_S160x64_S64x64_96_0)
    (shapeCast S1x64 a5 shapeCasts_S64_S1x64)

/-- The program's result: the two-part layer of the mean of the messages and the node features. -/
def result (a0 : S50000x64.Idx → EReal) (a1 : S800000x32.Idx → EReal) (a2 a3 : (⟨S800000, .i32⟩ : BufTy).Contents (Elt Ideal))
    (a4 : S160x64.Idx → EReal) (a5 : S64.Idx → EReal) (a6 : S128x64.Idx → EReal) (a7 : S64.Idx → EReal) : S50000x64.Idx → EReal :=
  mlp2 (M := 50000) (neigh (F := Ideal) (messages a0 a1 a2 a3 a4 a5) a3) a0
    (extractStridedSlice S64x64 ![0, 0] a6 slices_S128x64_S64x64_0_0)
    (extractStridedSlice S64x64 ![64, 0] a6 slices_S128x64_S64x64_64_0)
    (shapeCast S1x64 a7 shapeCasts_S64_S1x64)

variable (m : (ℓ : Loc nD τ sig) → Buf (Elt Ideal) ℓ) (ρ : Dev nD → PrngReg)

/-- The edge region's result array, after the region, is the messages of the arguments. -/
theorem W2_v18 (c : Dev nD) : W2 m ρ c (Proc.devRef .tc main_v18)
    = messages (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  ((W2_arr m ρ c 7).trans (final0 (V1 m ρ) c)).trans (by
    show mlp3 (M := 800000) (V1 m ρ c main_v6) (V1 m ρ c main_arg1) (V1 m ρ c main_v13) (V1 m ρ c main_v14) (V1 m ρ c main_v15)
      (V1 m ρ c main_v16) (V1 m ρ c main_v17) = _
    rw [V1_v6, V1_arg1, V1_v13, V1_v14, V1_v15, V1_v16, V1_v17]
    rfl)

/-- The program's result buffer at the last boundary is the result function of the arguments. -/
theorem W6_v38 (c : Dev nD) : W6 m ρ c (Proc.devRef .tc main_v38)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  ((W6_arr m ρ c 5).trans (final1 (V5 m ρ) c)).trans (by
    show mlp2 (M := 50000) (V5 m ρ c main_v34) (V5 m ρ c main_arg0) (V5 m ρ c main_v35) (V5 m ρ c main_v36) (V5 m ρ c main_v37) = _
    rw [V5_v34, V5_arg0, V5_v35, V5_v36, V5_v37, W4_main_arg6, W4_main_arg7, W2_v18, W2_arg3]
    rfl)

end Cert.KernelIdeal.Whole

end
-- ==== Proof.RefSide.lean ====
/-
  The reference's result as the two layers of the specification.

  The reference joins the gathered source rows, the edge features and the gathered destination rows side by side,
  multiplies by the whole edge weight array, adds the bias and rectifies; then takes the mean of the messages by
  destination, joins it with the node features, multiplies by the whole node weight array, adds the bias and
  rectifies.  At the exact instance the product of a side-by-side join with a stacked weight array is the sum of the
  pieces' products with the weight array's row blocks (a finite sum split in three, resp. two), which is the layer of
  the specification for any weight blocks that ARE those row blocks and any bias row that IS the bias vector.
-/
import proofs.«166443_j88837103551520_1_alg».proof.Proof.RefRun
import proofs.«166443_j88837103551520_1_alg».proof.Proof.Spec
import proofs.«166443_j88837103551520_1_alg».proof.Proof.LibPlainDot
import Idealize.ShloMosaic.Lib.Pipeline.Value

set_option maxRecDepth 16384

noncomputable section

open scoped BigOperators

open Idealize.ShloMosaic Idealize.ShloMosaic.TcCoe Idealize.SL.Sem

namespace Cert.ReferenceIdeal.Host

open Cert.ReferenceIdeal Cert.ReferenceIdeal.Gen

variable {F : FTy → Type} [FloatOps F]

/-- Rows of the node features picked by an index vector, a negative index counted from the end (the host's gather). -/
def rows (node : (⟨S50000x64, .f32⟩ : BufTy).Contents (Elt F)) (idx : (⟨S800000, .i32⟩ : BufTy).Contents (Elt F)) :
    (⟨S800000x64, .f32⟩ : BufTy).Contents (Elt F) :=
  Host.gather gather_S50000x64_S800000x1_S800000x64_1_0_n_n_0_1_164 node
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32))) idx))

/-- How many edges point at each node, as a float: ones scattered and added by destination. -/
def degree (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The mean of the messages arriving at each node (zero where none arrives): the messages scattered and added by
    destination, divided by the larger of the degree and one, kept where the degree is positive. -/
def neigh (msg : (⟨S800000x64, .f32⟩ : BufTy).Contents (Elt F)) (dst : (⟨S800000, .i32⟩ : BufTy).Contents (Elt F)) :
    (⟨S50000x64, .f32⟩ : BufTy).Contents (Elt F) :=
  select
    (broadcastInDim S50000x64 ![0, 1] bcast_S50000x1_S50000x64_0_1
      (cmpf (F := F) .ogt (broadcastInDim S50000x1 ![0] bcast_S50000_S50000x1_0 (degree dst))
        (broadcastInDim S50000x1 ![] bcast_S_S50000x1 (constant S_ .f32 0x00000000#32))))
    (Host.divf
      (Host.scatterAdd scatter_S50000x64_S800000x1_S800000x64_1_0_0_1
        (broadcastInDim S50000x64 ![] bcast_S_S50000x64 (constant S_ .f32 0x00000000#32))
        (broadcastInDim S800000x1 ![0] bcast_S800000_S800000x1_0 dst) msg)
      (broadcastInDim S50000x64 ![0, 1] bcast_S50000x1_S50000x64_0_1
        (maximumf (broadcastInDim S50000x1 ![0] bcast_S50000_S50000x1_0 (degree dst))
          (broadcastInDim S50000x1 ![] bcast_S_S50000x1 (constant S_ .f32 0x3F800000#32)))))
    (broadcastInDim S50000x64 ![] bcast_S_S50000x64 (id (constant S_ .f32 0x00000000#32)))

/-- The reference's edge layer: join, multiply by the whole weight array, add the bias, rectify. -/
def edgeJoin (s : (⟨S800000x64, .f32⟩ : BufTy).Contents (Elt F)) (e : (⟨S800000x32, .f32⟩ : BufTy).Contents (Elt F))
    (d : (⟨S800000x64, .f32⟩ : BufTy).Contents (Elt F)) (W : (⟨S160x64, .f32⟩ : BufTy).Contents (Elt F))
    (b : (⟨S64, .f32⟩ : BufTy).Contents (Elt F)) : (⟨S800000x64, .f32⟩ : BufTy).Contents (Elt F) :=
  maximumf
    (addf
      (Host.dotGeneral dot_S800000x160_S160x64_S800000x64_1_0_0_1_n_n none
        (concatenate S800000x160 1 [⟨S800000x64, s⟩, ⟨S800000x32, e⟩, ⟨S800000x64, d⟩] concatenates_S800000x64_S800000x32_S800000x64_S800000x160_d1) W)
      (broadcastInDim S800000x64 ![0, 1] bcast_S1x64_S800000x64_0_1 (broadcastInDim S1x64 ![1] bcast_S64_S1x64_1 b)))
    (broadcastInDim S800000x64 ![] bcast_S_S800000x64 (constant S_ .f32 0x00000000#32))

/-- The reference's node layer: join, multiply by the whole weight array, add the bias, rectify. -/
def nodeJoin (n : (⟨S50000x64, .f32⟩ : BufTy).Contents (Elt F)) (x : (⟨S50000x64, .f32⟩ : BufTy).Contents (Elt F))
    (W : (⟨S128x64, .f32⟩ : BufTy).Contents (Elt F)) (b : (⟨S64, .f32⟩ : BufTy).Contents (Elt F)) :
    (⟨S50000x64, .f32⟩ : BufTy).Contents (Elt F) :=
  maximumf
    (addf
      (Host.dotGeneral dot_S50000x128_S128x64_S50000x64_1_0_0_1_n_n none
        (concatenate S50000x128 1 [⟨S50000x64, n⟩, ⟨S50000x64, x⟩] concatenates_S50000x64_S50000x64_S50000x128_d1) W)
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

end Cert.ReferenceIdeal.Host

namespace Cert.ReferenceIdeal.Hand

open Cert.ReferenceIdeal Cert.ReferenceIdeal.Gen Cert.ReferenceIdeal.Host Idealize.ShloMosaic.ValueIdx MlpSpec

theorem plain160 : PlainDot.IsPlain (M := 800000) (K := 160) (N := 64) dot_S800000x160_S160x64_S800000x64_1_0_0_1_n_n :=
  ⟨rfl, rfl, rfl, rfl, rfl, rfl⟩

theorem plain128 : PlainDot.IsPlain (M := 50000) (K := 128) (N := 64) dot_S50000x128_S128x64_S50000x64_1_0_0_1_n_n :=
  ⟨rfl, rfl, rfl, rfl, rfl, rfl⟩

/-- The bias vector made a row and repeated along the 800000 rows, read at an entry. -/
theorem bias_e (b : S64.Idx → EReal) (p : Fin 800000) (q : Fin 64) :
    broadcastInDim S800000x64 ![0, 1] bcast_S1x64_S800000x64_0_1 (broadcastInDim S1x64 ![1] bcast_S64_S1x64_1 b) (ix2 p q) = b (ix1 q) :=
  (broadcastInDim_apply _ bcast_S1x64_S800000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- The same along the 50000 rows. -/
theorem bias_v (b : S64.Idx → EReal) (p : Fin 50000) (q : Fin 64) :
    broadcastInDim S50000x64 ![0, 1] bcast_S1x64_S50000x64_0_1 (broadcastInDim S1x64 ![1] bcast_S64_S1x64_1 b) (ix2 p q) = b (ix1 q) :=
  (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- The zero the rectifier compares with, spread over the array, read at an entry. -/
theorem zero_e (i : S800000x64.Idx) :
    broadcastInDim S800000x64 ![] bcast_S_S800000x64 (constant (F := Ideal) S_ .f32 0x00000000#32) i = z0 :=
  broadcastInDim_apply _ bcast_S_S800000x64 (constant (F := Ideal) S_ .f32 0x00000000#32) i ix0 (fun a => a.elim0)

theorem zero_v (i : S50000x64.Idx) :
    broadcastInDim S50000x64 ![] bcast_S_S50000x64 (constant (F := Ideal) S_ .f32 0x00000000#32) i = z0 :=
  broadcastInDim_apply _ bcast_S_S50000x64 (constant (F := Ideal) S_ .f32 0x00000000#32) i ix0 (fun a => a.elim0)

section Edge

variable (s : S800000x64.Idx → EReal) (e : S800000x32.Idx → EReal) (d : S800000x64.Idx → EReal)

/-- Columns 0 … 63 of the joined row are the source row. -/
theorem join3_src (p : Fin 800000) (k : Fin 64) (hk : k.val < 160) :
    concatenate S800000x160 1 [⟨S800000x64, s⟩, ⟨S800000x32, e⟩, ⟨S800000x64, d⟩] concatenates_S800000x64_S800000x32_S800000x64_S800000x160_d1
      (ix2 p (⟨k.val, hk⟩ : Fin 160)) = s (ix2 p k) :=
  concatenate_apply_piece (1 : Fin S800000x160.rank) [⟨S800000x64, s⟩, ⟨S800000x32, e⟩, ⟨S800000x64, d⟩] concatenates_S800000x64_S800000x32_S800000x64_S800000x160_d1 _ 0 (by show (0 : Nat) < 3; decide)
    S800000x64 s rfl rfl 0 rfl (ix2 p k)
    (fun b hb => by
      match b with
      | ⟨0, _⟩ => rfl
      | ⟨1, _⟩ => exact absurd rfl hb)
    (by show 0 + k.val = k.val; omega)

/-- Columns 64 … 95 are the edge features' row. -/
theorem join3_edge (p : Fin 800000) (k : Fin 32) (hk : 64 + k.val < 160) :
    concatenate S800000x160 1 [⟨S800000x64, s⟩, ⟨S800000x32, e⟩, ⟨S800000x64, d⟩] concatenates_S800000x64_S800000x32_S800000x64_S800000x160_d1
      (ix2 p (⟨64 + k.val, hk⟩ : Fin 160)) = e (ix2 p k) :=
  concatenate_apply_piece (1 : Fin S800000x160.rank) [⟨S800000x64, s⟩, ⟨S800000x32, e⟩, ⟨S800000x64, d⟩] concatenates_S800000x64_S800000x32_S800000x64_S800000x160_d1 _ 1 (by show (1 : Nat) < 3; decide)
    S800000x32 e rfl rfl 64 rfl (ix2 p k)
    (fun b hb => by
      match b with
      | ⟨0, _⟩ => rfl
      | ⟨1, _⟩ => exact absurd rfl hb)
    (by show 64 + k.val = 64 + k.val; rfl)

/-- Columns 96 … 159 are the destination row. -/
theorem join3_dst (p : Fin 800000) (k : Fin 64) (hk : 96 + k.val < 160) :
    concatenate S800000x160 1 [⟨S800000x64, s⟩, ⟨S800000x32, e⟩, ⟨S800000x64, d⟩] concatenates_S800000x64_S800000x32_S800000x64_S800000x160_d1
      (ix2 p (⟨96 + k.val, hk⟩ : Fin 160)) = d (ix2 p k) :=
  concatenate_apply_piece (1 : Fin S800000x160.rank) [⟨S800000x64, s⟩, ⟨S800000x32, e⟩, ⟨S800000x64, d⟩] concatenates_S800000x64_S800000x32_S800000x64_S800000x160_d1 _ 2 (by show (2 : Nat) < 3; decide)
    S800000x64 d rfl rfl 96 rfl (ix2 p k)
    (fun b hb => by
      match b with
      | ⟨0, _⟩ => rfl
      | ⟨1, _⟩ => exact absurd rfl hb)
    (by show 96 + k.val = 96 + k.val; rfl)

/-- The reference's edge layer is the three-part layer, for weight blocks that are the weight array's row blocks
    0 … 63, 64 … 95, 96 … 159 and a bias row that is the bias vector. -/
theorem edgeJoin_eq (W : S160x64.Idx → EReal) (b : S64.Idx → EReal)
    (ws : (⟨2, ![64, 64]⟩ : Shape).Idx → EReal) (we : (⟨2, ![32, 64]⟩ : Shape).Idx → EReal) (wd : (⟨2, ![64, 64]⟩ : Shape).Idx → EReal)
    (b2 : (⟨2, ![1, 64]⟩ : Shape).Idx → EReal)
    (hws : ∀ (k : Fin 64) (q : Fin 64), ws (ix2 k q) = W (ix2 (⟨k.val, by have := k.isLt; omega⟩ : Fin 160) q))
    (hwe : ∀ (k : Fin 32) (q : Fin 64), we (ix2 k q) = W (ix2 (⟨64 + k.val, by have := k.isLt; omega⟩ : Fin 160) q))
    (hwd : ∀ (k : Fin 64) (q : Fin 64), wd (ix2 k q) = W (ix2 (⟨96 + k.val, by have := k.isLt; omega⟩ : Fin 160) q))
    (hb : ∀ q : Fin 64, b2 (ix2 (0 : Fin 1) q) = b (ix1 q)) :
    edgeJoin (F := Ideal) s e d W b = mlp3 (M := 800000) s e d ws we wd b2 := by
  funext j
  obtain ⟨p, q, rfl⟩ : ∃ (p : Fin 800000) (q : Fin 64), j = ix2 p q := ⟨j 0, j 1, eq_ix2 j⟩
  rw [mlp3_apply]
  unfold edgeJoin mlp3At
  rw [maximumf_apply, addf_apply, bias_e, zero_e]
  simp only [Host.dotGeneral]
  rw [PlainDot.dotGeneral_apply plain160, sum160]
  simp only [join3_src, join3_edge, join3_dst, hws, hwe, hwd, hb]

end Edge

section Node

variable (n : S50000x64.Idx → EReal) (x : S50000x64.Idx → EReal)

/-- Columns 0 … 63 of the joined row are the neighbour row. -/
theorem join2_neigh (p : Fin 50000) (k : Fin 64) (hk : k.val < 128) :
    concatenate S50000x128 1 [⟨S50000x64, n⟩, ⟨S50000x64, x⟩] concatenates_S50000x64_S50000x64_S50000x128_d1
      (ix2 p (⟨k.val, hk⟩ : Fin 128)) = n (ix2 p k) :=
  concatenate_pair_apply_left (1 : Fin S50000x128.rank) n x concatenates_S50000x64_S50000x64_S50000x128_d1 _ rfl (ix2 p k)
    (fun b => by
      match b with
      | ⟨0, _⟩ => rfl
      | ⟨1, _⟩ => rfl)

/-- Columns 64 … 127 are the node's own row. -/
theorem join2_node (p : Fin 50000) (k : Fin 64) (hk : 64 + k.val < 128) :
    concatenate S50000x128 1 [⟨S50000x64, n⟩, ⟨S50000x64, x⟩] concatenates_S50000x64_S50000x64_S50000x128_d1
      (ix2 p (⟨64 + k.val, hk⟩ : Fin 128)) = x (ix2 p k) :=
  concatenate_pair_apply_right (1 : Fin S50000x128.rank) n x concatenates_S50000x64_S50000x64_S50000x128_d1 _ rfl rfl (ix2 p k)
    (fun b hb => by
      match b with
      | ⟨0, _⟩ => rfl
      | ⟨1, _⟩ => exact absurd rfl hb)
    (by show k.val + 64 = 64 + k.val; omega)

/-- The reference's node layer is the two-part layer, for weight blocks that are the weight array's row blocks
    0 … 63 and 64 … 127 and a bias row that is the bias vector. -/
theorem nodeJoin_eq (W : S128x64.Idx → EReal) (b : S64.Idx → EReal)
    (wn : (⟨2, ![64, 64]⟩ : Shape).Idx → EReal) (wx : (⟨2, ![64, 64]⟩ : Shape).Idx → EReal)
    (b2 : (⟨2, ![1, 64]⟩ : Shape).Idx → EReal)
    (hwn : ∀ (k : Fin 64) (q : Fin 64), wn (ix2 k q) = W (ix2 (⟨k.val, by have := k.isLt; omega⟩ : Fin 128) q))
    (hwx : ∀ (k : Fin 64) (q : Fin 64), wx (ix2 k q) = W (ix2 (⟨64 + k.val, by have := k.isLt; omega⟩ : Fin 128) q))
    (hb : ∀ q : Fin 64, b2 (ix2 (0 : Fin 1) q) = b (ix1 q)) :
    nodeJoin (F := Ideal) n x W b = mlp2 (M := 50000) n x wn wx b2 := by
  funext j
  obtain ⟨p, q, rfl⟩ : ∃ (p : Fin 50000) (q : Fin 64), j = ix2 p q := ⟨j 0, j 1, eq_ix2 j⟩
  rw [mlp2_apply]
  unfold nodeJoin mlp2At
  rw [maximumf_apply, addf_apply, bias_v, zero_v]
  simp only [Host.dotGeneral]
  rw [PlainDot.dotGeneral_apply plain128, sum128]
  simp only [join2_neigh, join2_node, hwn, hwx, hb]

end Node

end Cert.ReferenceIdeal.Hand

end
-- ==== Proof.Bridge.lean ====
/-
  The two programs compute one function.

  The idealized kernel program's result is the two-part layer of the mean of the three-part layer's messages, the
  layers taken with the weight arrays' row blocks (slices) and the bias vectors made rows; the reference's is the same
  two layers in joined form.  A slice read at an entry is the array's entry shifted by the slice's offset, and the bias
  row's entry is the bias vector's, so the joined forms are the split ones; the gathers and the mean by destination are
  the same host operations on both sides.
-/
import proofs.«166443_j88837103551520_1_alg».proof.Proof.KValue
import proofs.«166443_j88837103551520_1_alg».proof.Proof.RefSide
import Idealize.ShloMosaic.Lib.ValueLayout

set_option maxRecDepth 16384

noncomputable section

open Idealize.ShloMosaic Idealize.ShloMosaic.TcCoe Idealize.SL.Sem Idealize.ShloMosaic.ValueIdx

namespace Cert.Bridge

open MlpSpec

/-- The same gather on both sides. -/
theorem rows_eq (node : (⟨Cert.KernelIdeal.S50000x64, .f32⟩ : BufTy).Contents (Elt Ideal))
    (idx : (⟨Cert.KernelIdeal.S800000, .i32⟩ : BufTy).Contents (Elt Ideal)) :
    Cert.ReferenceIdeal.Host.rows (F := Ideal) node idx = Cert.KernelIdeal.Host.rows (F := Ideal) node idx := rfl

/-- The same mean by destination on both sides. -/
theorem neigh_eq (msg : (⟨Cert.KernelIdeal.S800000x64, .f32⟩ : BufTy).Contents (Elt Ideal))
    (dst : (⟨Cert.KernelIdeal.S800000, .i32⟩ : BufTy).Contents (Elt Ideal)) :
    Cert.ReferenceIdeal.Host.neigh (F := Ideal) msg dst = Cert.KernelIdeal.Host.neigh (F := Ideal) msg dst := rfl

section

open Cert.KernelIdeal Cert.KernelIdeal.Gen

/-- Row block 0 … 63 of the edge weights. -/
theorem we0 (a4 : S160x64.Idx → EReal) (k q : Fin 64) (hk : k.val < 160) :
    extractStridedSlice S64x64 ![0, 0] a4 slices_S160x64_S64x64_0_0 (ix2 k q) = a4 (ix2 (⟨k.val, hk⟩ : Fin 160) q) :=
  extractStridedSlice_apply _ a4 slices_S160x64_S64x64_0_0 (ix2 k q) _ fun a => by
    match a with
    | ⟨0, _⟩ => show k.val = 0 + k.val; omega
    | ⟨1, _⟩ => show q.val = 0 + q.val; omega

/-- Row block 64 … 95 of the edge weights. -/
theorem we64 (a4 : S160x64.Idx → EReal) (k : Fin 32) (q : Fin 64) (hk : 64 + k.val < 160) :
    extractStridedSlice S32x64 ![64, 0] a4 slices_S160x64_S32x64_64_0 (ix2 k q) = a4 (ix2 (⟨64 + k.val, hk⟩ : Fin 160) q) :=
  extractStridedSlice_apply _ a4 slices_S160x64_S32x64_64_0 (ix2 k q) _ fun a => by
    match a with
    | ⟨0, _⟩ => show 64 + k.val = 64 + k.val; rfl
    | ⟨1, _⟩ => show q.val = 0 + q.val; omega

/-- Row block 96 … 159 of the edge weights. -/
theorem we96 (a4 : S160x64.Idx → EReal) (k q : Fin 64) (hk : 96 + k.val < 160) :
    extractStridedSlice S64x64 ![96, 0] a4 slices_S160x64_S64x64_96_0 (ix2 k q) = a4 (ix2 (⟨96 + k.val, hk⟩ : Fin 160) q) :=
  extractStridedSlice_apply _ a4 slices_S160x64_S64x64_96_0 (ix2 k q) _ fun a => by
    match a with
    | ⟨0, _⟩ => show 96 + k.val = 96 + k.val; rfl
    | ⟨1, _⟩ => show q.val = 0 + q.val; omega

/-- Row block 0 … 63 of the node weights. -/
theorem wv0 (a6 : S128x64.Idx → EReal) (k q : Fin 64) (hk : k.val < 128) :
    extractStridedSlice S64x64 ![0, 0] a6 slices_S128x64_S64x64_0_0 (ix2 k q) = a6 (ix2 (⟨k.val, hk⟩ : Fin 128) q) :=
  extractStridedSlice_apply _ a6 slices_S128x64_S64x64_0_0 (ix2 k q) _ fun a => by
    match a with
    | ⟨0, _⟩ => show k.val = 0 + k.val; omega
    | ⟨1, _⟩ => show q.val = 0 + q.val; omega

/-- Row block 64 … 127 of the node weights. -/
theorem wv64 (a6 : S128x64.Idx → EReal) (k q : Fin 64) (hk : 64 + k.val < 128) :
    extractStridedSlice S64x64 ![64, 0] a6 slices_S128x64_S64x64_64_0 (ix2 k q) = a6 (ix2 (⟨64 + k.val, hk⟩ : Fin 128) q) :=
  extractStridedSlice_apply _ a6 slices_S128x64_S64x64_64_0 (ix2 k q) _ fun a => by
    match a with
    | ⟨0, _⟩ => show 64 + k.val = 64 + k.val; rfl
    | ⟨1, _⟩ => show q.val = 0 + q.val; omega

/-- The bias vector made a row. -/
theorem brow (b : S64.Idx → EReal) (q : Fin 64) :
    shapeCast S1x64 b shapeCasts_S64_S1x64 (ix2 (0 : Fin 1) q) = b (ix1 q) :=
  shapeCast_a_1a_apply b shapeCasts_S64_S1x64 0 q

end

/-- The reference's result term is the kernel program's result function. -/
theorem result_eq (a0 : Cert.KernelIdeal.S50000x64.Idx → EReal) (a1 : Cert.KernelIdeal.S800000x32.Idx → EReal)
    (a2 a3 : (⟨Cert.KernelIdeal.S800000, .i32⟩ : BufTy).Contents (Elt Ideal))
    (a4 : Cert.KernelIdeal.S160x64.Idx → EReal) (a5 : Cert.KernelIdeal.S64.Idx → EReal)
    (a6 : Cert.KernelIdeal.S128x64.Idx → EReal) (a7 : Cert.KernelIdeal.S64.Idx → EReal) :
    Cert.ReferenceIdeal.Host.nodeJoin (F := Ideal)
      (Cert.ReferenceIdeal.Host.neigh (F := Ideal)
        (Cert.ReferenceIdeal.Host.edgeJoin (F := Ideal) (Cert.ReferenceIdeal.Host.rows (F := Ideal) a0 a2) a1
          (Cert.ReferenceIdeal.Host.rows (F := Ideal) a0 a3) a4 a5) a3) a0 a6 a7
    = Cert.KernelIdeal.Whole.result a0 a1 a2 a3 a4 a5 a6 a7 := by
  rw [Cert.ReferenceIdeal.Hand.nodeJoin_eq _ _ a6 a7 _ _ _ (fun k q => wv0 a6 k q _) (fun k q => wv64 a6 k q _) (brow a7),
    Cert.ReferenceIdeal.Hand.edgeJoin_eq _ _ _ a4 a5 _ _ _ _ (fun k q => we0 a4 k q _) (fun k q => we64 a4 k q _) (fun k q => we96 a4 k q _) (brow a5),
    rows_eq, neigh_eq]
  rfl

end Cert.Bridge

end
-- ==== Proof.lean ====
/-
  A two-stage message-passing step: per edge, a dense layer with a rectifier over the joined source-node, edge and
  destination-node features; per node, the mean of the arriving messages; per node again, a dense layer with a
  rectifier over the joined mean and node features.

  The kernel program computes each dense layer in row blocks, as a sum of products with the weight array's row blocks
  (three for the edge layer, two for the node layer), its matrix products taking operands narrowed to a shorter float
  format; the reference joins the features side by side and multiplies by the whole weight array.  Over the extended
  reals a change of format is the identity and a matrix product is the plain sum of products, so the product of a
  side-by-side join with stacked weights is the sum of the pieces' products: a finite sum over 160 (resp. 128) indices
  split in three (resp. two), which needs only that addition of extended reals is associative and commutative — the
  inputs' finiteness is not used.  The gathers, the scatter-adds, the division by the degree and the selection of the
  nodes with an arriving message are the same host operations in both programs.

  The kernel's value: each region's result array is one whole-array function of the arrays the region finds (a row of
  a layer depends only on the same row of the row-blocked operands, and the written blocks cover the array); the
  host operations between the regions carry the first region's array to the second's operand.  The frames of the two
  kernel programs are the generated ones; the reference's is its run with the result dropped; the idealization rewrote
  nothing.
-/
import proofs.«166443_j88837103551520_1_alg».proof.Defs
import proofs.«166443_j88837103551520_1_alg».proof.Proof.Gen.Kernel
import proofs.«166443_j88837103551520_1_alg».proof.Proof.Gen.Kernel.Skeleton
import proofs.«166443_j88837103551520_1_alg».proof.Proof.Gen.Kernel.Launch
import proofs.«166443_j88837103551520_1_alg».proof.Proof.Gen.Kernel.Points
import proofs.«166443_j88837103551520_1_alg».proof.Proof.Gen.Kernel.Frame
import proofs.«166443_j88837103551520_1_alg».proof.Proof.Gen.KernelIdeal
import proofs.«166443_j88837103551520_1_alg».proof.Proof.Gen.KernelIdeal.Skeleton
import proofs.«166443_j88837103551520_1_alg».proof.Proof.Gen.KernelIdeal.Launch
import proofs.«166443_j88837103551520_1_alg».proof.Proof.Gen.KernelIdeal.Points
import proofs.«166443_j88837103551520_1_alg».proof.Proof.Gen.KernelIdeal.Frame
import proofs.«166443_j88837103551520_1_alg».proof.Proof.Gen.ReferenceIdeal
import proofs.«166443_j88837103551520_1_alg».proof.Proof.Gen.Pre_finite_inputs
import proofs.«166443_j88837103551520_1_alg».proof.Proof.KRun
import proofs.«166443_j88837103551520_1_alg».proof.Proof.RefRun
import proofs.«166443_j88837103551520_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result function of the arguments in their result buffers. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.W6_v38 m ρ c), (h c).2⟩)
      (Cert.KernelIdeal.GenP.run_named (F := Ideal) m ρ)
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [e0, e1, e2, e3, e4, e5, e6, e7]
  exact Cert.Bridge.result_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
